-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S2x32x1024x1024 : Shape := ⟨4, ![2, 32, 1024, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S2x32x1024x1024 : S_.BroadcastsInDim S2x32x1024x1024 (![] : Fin 0 → Fin S2x32x1024x1024.rank)
  reducesTo_S2x32x1024x1024_S_d0_1_2_3 : S2x32x1024x1024.ReducesTo [0, 1, 2, 3] S_

variable [Facts]

def fn {F : FTy → Type} [FloatOps F] (main_arg0 : FVec F S32x512x1024 .f32) (main_arg1 : FVec F S2x32x1024x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S2x32x1024x1024 .f32 := Host.absf main_arg1
  let main_cst_0 : FVec F S_ .f32 := constant S_ .f32 0x7F800000#32
  let main_v5 : FVec F S2x32x1024x1024 .f32 := broadcastInDim S2x32x1024x1024 ![] bcast_S_S2x32x1024x1024 main_cst_0
  let main_v6 : IVec S2x32x1024x1024 1 := cmpf .olt main_v4 main_v5
  let main_c_1 : IVec S_ 1 := constantI S_ 1 1#1
  let main_v7 : IVec S_ 1 := (fun x v => Host.reduce IntOp.andi x v reducesTo_S2x32x1024x1024_S_d0_1_2_3 h_S_) main_v6 main_c_1
  let main_v8 : IVec S_ 1 := andi main_v3 main_v7
  main_v8
-- ==== Kernel.lean ====
abbrev S32x512x1024 : Shape := ⟨3, ![32, 512, 1024]⟩
abbrev S2x32x1024x1024 : Shape := ⟨4, ![2, 32, 1024, 1024]⟩
abbrev S1x512x1024 : Shape := ⟨3, ![1, 512, 1024]⟩
abbrev S2x1x1024x1024 : Shape := ⟨4, ![2, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S2x32x1024x1024, .f32⟩
  | .hbm, ⟨2, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x1x1024x1024, .f32⟩
  | .local _ .vmem, ⟨3, _⟩ => ⟨S2x1x1024x1024, .f32⟩
  | .local _ .vmem, ⟨4, _⟩ => ⟨S1x512x1024, .f32⟩
  | .local _ .vmem, ⟨5, _⟩ => ⟨S1x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S2x1x1024x1024_S1x1x1024x1024_0_0_0_0 : ∀ a, (![0, 0, 0, 0] : Fin 4 → Nat) a + S1x1x1024x1024.size a ≤ S2x1x1024x1024.size a
  h_S1x1x1024x1024 : 0 < S1x1x1024x1024.numel
  shapeCasts_S1x1x1024x1024_S1024x1024 : S1x1x1024x1024.ShapeCasts S1024x1024
  inb_S2x1x1024x1024_S1x1x1024x1024_1_0_0_0 : ∀ a, (![1, 0, 0, 0] : Fin 4 → Nat) a + S1x1x1024x1024.size a ≤ S2x1x1024x1024.size a
  reduces_S1024x1024_S1024 : S1024x1024.Reduces [0] S1024
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024x1024.size a ≤ S2x32x1024x1024.size a
  hwx0_1 : ∀ i : grid0.Coords, EltTy.bits .f32 = 32 ∨ (Rect.block (s := S2x32x1024x1024) S2x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x1024.size a
  hwx0_2 : ∀ i : grid0.Coords, EltTy.bits .f32 = 32 ∨ (Rect.block (s := S32x512x1024) S1x512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S2x32x1024x1024 : Shape := ⟨4, ![2, 32, 1024, 1024]⟩
abbrev S_ : Shape := ⟨0, ![]⟩
abbrev S1x32x1024x1024 : Shape := ⟨4, ![1, 32, 1024, 1024]⟩
abbrev S32x1024x1024 : Shape := ⟨3, ![32, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S2x32x1024x1024, .f32⟩
  | .hbm, ⟨2, _⟩ => ⟨S_, .f32⟩
  | .hbm, ⟨3, _⟩ => ⟨S32x512x1024, .f32⟩
  | .hbm, ⟨4, _⟩ => ⟨S32x512x1024, .f32⟩
  | .hbm, ⟨5, _⟩ => ⟨S1x32x1024x1024, .f32⟩
  | .hbm, ⟨6, _⟩ => ⟨S32x1024x1024, .f32⟩
  | .hbm, ⟨7, _⟩ => ⟨S32x512x1024, .f32⟩
  | .hbm, ⟨8, _⟩ => ⟨S1x32x1024x1024, .f32⟩
  | .hbm, ⟨9, _⟩ => ⟨S32x1024x1024, .f32⟩
  | .hbm, ⟨10, _⟩ => ⟨S32x512x1024, .f32⟩
  | .hbm, ⟨11, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S32x512x1024 : S_.BroadcastsInDim S32x512x1024 (![] : Fin 0 → Fin S32x512x1024.rank)
  slices_S2x32x1024x1024_S1x32x1024x1024_0_0_0_0 : S2x32x1024x1024.Slices ![0, 0, 0, 0] S1x32x1024x1024
  shapeCasts_S1x32x1024x1024_S32x1024x1024 : S1x32x1024x1024.ShapeCasts S32x1024x1024
  slices_S2x32x1024x1024_S1x32x1024x1024_1_0_0_0 : S2x32x1024x1024.Slices ![1, 0, 0, 0] S1x32x1024x1024
  dot_S32x512x1024_S32x1024x1024_S32x512x1024_2_1_1_2_0_0_wf : DotDims.WF S32x512x1024 S32x1024x1024 S32x512x1024 [2] [1] [1] [2] [0] [0]

variable [Facts₀]

def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf

class Facts : Prop extends Facts₀ where

variable [Facts]
-- ==== Proof.FusedLaw.lean ====
/-
  The mathematics of this certificate, free of any program.

  For p < 32, b < 512, o < 1024 the layer's output is, the reference's way,
      out[p,b,o] = Σₖ x[p,b,k]·w[0,p,k,o] + Σₖ (1 − x[p,b,k])·w[1,p,k,o]            (`twoProducts`)
  and, the kernel's way, with the difference of the two weight planes taken first and the column sum of the second
  plane added as a bias,
      out[p,b,o] = Σₖ x[p,b,k]·(w[0,p,k,o] − w[1,p,k,o]) + Σₖ w[1,p,k,o]            (`fused`).
  Over ℝ the two agree term by term: x(a − b) + b = xa + (1 − x)b. On the extended reals distributivity fails at ±∞
  (∞ − ∞ is −∞ there), so the law is stated for families every entry of which is a real number; the sums are then pulled
  back to ℝ, where each term is a ring identity.
-/
import Idealize.ShloMosaic.PureOps.Ideal.Laws
import Idealize.ShloMosaic.Lib.ValueIdx
import Mathlib.Tactic.Ring

noncomputable section

namespace Cert.EvoLayer

open Idealize.ShloMosaic Idealize.ShloMosaic.ValueIdx

/-- The inclusion of ℝ in the extended reals commutes with finite sums. -/
theorem coe_finsum {ι : Type*} (s : Finset ι) (f : ι → ℝ) : ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- The law, over any finite index set: for real families x, a, b,
    Σ x·(a − b) + Σ b = Σ x·a + Σ (1 − x)·b. -/
theorem sum_fused_eq {ι : Type*} [Fintype ι] (x a b : ι → EReal)
    (hx : ∀ k, ∃ r : ℝ, x k = (r : EReal)) (ha : ∀ k, ∃ r : ℝ, a k = (r : EReal)) (hb : ∀ k, ∃ r : ℝ, b k = (r : EReal)) :
    (∑ k, x k * (a k - b k)) + ∑ k, b k = (∑ k, x k * a k) + ∑ k, (1 - x k) * b k := by
  choose xr hxr using hx
  choose ar har using ha
  choose br hbr using hb
  simp only [hxr, har, hbr]
  have h1 : (1 : EReal) = ((1 : ℝ) : EReal) := rfl
  rw [h1]
  simp only [← EReal.coe_sub, ← EReal.coe_mul, ← coe_finsum, ← EReal.coe_add]
  refine congrArg (fun r : ℝ => (r : EReal)) ?_
  rw [← Finset.sum_add_distrib, ← Finset.sum_add_distrib]
  exact Finset.sum_congr rfl fun k _ => by ring

/-- The activations: 32 problems, 512 rows, 1024 input features. -/
abbrev SX : Shape := ⟨3, ![32, 512, 1024]⟩
/-- The two weight planes: plane, problem, input feature, output feature. -/
abbrev SW : Shape := ⟨4, ![2, 32, 1024, 1024]⟩

/-- One output entry the reference's way: the product with plane 0 plus the product of the complement with plane 1. -/
def twoProductsAt (x : SX.Idx → EReal) (w : SW.Idx → EReal) (p : Fin 32) (b : Fin 512) (o : Fin 1024) : EReal :=
  (∑ k : Fin 1024, x (ix3 p b k) * w (ix4 (0 : Fin 2) p k o)) + ∑ k : Fin 1024, (1 - x (ix3 p b k)) * w (ix4 (1 : Fin 2) p k o)

/-- One output entry the kernel's way: one product with the difference of the planes, plus plane 1's column sum. -/
def fusedAt (x : SX.Idx → EReal) (w : SW.Idx → EReal) (p : Fin 32) (b : Fin 512) (o : Fin 1024) : EReal :=
  (∑ k : Fin 1024, x (ix3 p b k) * (w (ix4 (0 : Fin 2) p k o) - w (ix4 (1 : Fin 2) p k o))) + ∑ k : Fin 1024, w (ix4 (1 : Fin 2) p k o)

/-- The whole output array, the reference's way. -/
def twoProducts (x : SX.Idx → EReal) (w : SW.Idx → EReal) : SX.Idx → EReal := fun i => twoProductsAt x w (i 0) (i 1) (i 2)

/-- The whole output array, the kernel's way. -/
def fused (x : SX.Idx → EReal) (w : SW.Idx → EReal) : SX.Idx → EReal := fun i => fusedAt x w (i 0) (i 1) (i 2)

/-- On real inputs the kernel's form is the reference's. -/
theorem fused_eq_twoProducts (x : SX.Idx → EReal) (w : SW.Idx → EReal)
    (hx : ∀ i, ∃ r : ℝ, x i = (r : EReal)) (hw : ∀ i, ∃ r : ℝ, w i = (r : EReal)) : fused x w = twoProducts x w :=
  funext fun i => sum_fused_eq (fun k => x (ix3 (i 0) (i 1) k)) (fun k => w (ix4 (0 : Fin 2) (i 0) k (i 2)))
    (fun k => w (ix4 (1 : Fin 2) (i 0) k (i 2))) (fun _ => hx _) (fun _ => hw _) (fun _ => hw _)

end Cert.EvoLayer

end
-- ==== Proof.RefForm.lean ====
/-
  The reference program's result, read entry by entry, is `twoProducts` of its two arguments.

  The reference slices the weight array into its two planes, reshapes each from [1,32,1024,1024] to [32,1024,1024],
  contracts x with plane 0 and (1 − x) with plane 1 over the feature axis (batched over the 32 problems), and adds. Read at
  (p,b,o), the left product is Σₖ x[p,b,k]·w[0,p,k,o] and the right Σₖ (1 − x[p,b,k])·w[1,p,k,o]: the slice keeps the plane's
  coordinate, the reshape keeps the row-major position, and 0x3F800000 is the real number 1.
-/
import proofs.«145250_j58780922413282_1_alg».proof.Proof.Gen.ReferenceIdeal.Read
import proofs.«145250_j58780922413282_1_alg».proof.Proof.FusedLaw

noncomputable section

namespace Cert.ReferenceIdeal.RefForm

open Cert.ReferenceIdeal Cert.ReferenceIdeal.Gen Cert.ReferenceIdeal.Read Idealize.ShloMosaic Idealize.ShloMosaic.ValueIdx Cert.EvoLayer

/-- The pattern of the reference's constant is the real number one. -/
theorem one_eq : Ideal.ofBits .f32 0x3F800000#32 = (1 : EReal) := IdealRules.sign_bit.ideal_onePat .f32

/-- The left operand of either product at output (p,b,o) and contraction k is x at (p,b,k). -/
theorem left0 (p : Fin 32) (b : Fin 512) (o k : Fin 1024) : lidx_main_v4 (ix3 p b o) k = ix3 p b k :=
  funext fun a => Fin.ext (by match a with | ⟨0, _⟩ => rfl | ⟨1, _⟩ => rfl | ⟨2, _⟩ => rfl)
theorem left1 (p : Fin 32) (b : Fin 512) (o k : Fin 1024) : lidx_main_v7 (ix3 p b o) k = ix3 p b k :=
  funext fun a => Fin.ext (by match a with | ⟨0, _⟩ => rfl | ⟨1, _⟩ => rfl | ⟨2, _⟩ => rfl)

/-- Through the reshape and the slice, the first product's right operand at (p,b,o), k is w at (0,p,k,o). -/
theorem plane0 (p : Fin 32) (b : Fin 512) (o k : Fin 1024) :
    idx_main_v2 (idx_main_v3 (ridx_main_v4 (ix3 p b o) k)) = ix4 (0 : Fin 2) p k o :=
  funext fun a => Fin.ext (by
    have h0 : p.val < 32 := p.isLt
    have h2 : o.val < 1024 := o.isLt
    have hk : k.val < 1024 := k.isLt
    match a with
    | ⟨0, _⟩ => rfl
    | ⟨1, _⟩ => show ((p.val * 1024 + k.val) * 1024 + o.val) / 1048576 % 32 = p.val; omega
    | ⟨2, _⟩ => show ((p.val * 1024 + k.val) * 1024 + o.val) / 1024 % 1024 = k.val; omega
    | ⟨3, _⟩ => show ((p.val * 1024 + k.val) * 1024 + o.val) % 1024 = o.val; omega)

/-- And the second product's right operand is w at (1,p,k,o). -/
theorem plane1 (p : Fin 32) (b : Fin 512) (o k : Fin 1024) :
    idx_main_v5 (idx_main_v6 (ridx_main_v7 (ix3 p b o) k)) = ix4 (1 : Fin 2) p k o :=
  funext fun a => Fin.ext (by
    have h0 : p.val < 32 := p.isLt
    have h2 : o.val < 1024 := o.isLt
    have hk : k.val < 1024 := k.isLt
    match a with
    | ⟨0, _⟩ => rfl
    | ⟨1, _⟩ => show ((p.val * 1024 + k.val) * 1024 + o.val) / 1048576 % 32 = p.val; omega
    | ⟨2, _⟩ => show ((p.val * 1024 + k.val) * 1024 + o.val) / 1024 % 1024 = k.val; omega
    | ⟨3, _⟩ => show ((p.val * 1024 + k.val) * 1024 + o.val) % 1024 = o.val; omega)

/-- The reference's complement stage at an entry: the constant one minus x there. -/
theorem compl_apply (x : (⟨S32x512x1024, .f32⟩ : BufTy).Contents (Elt Ideal)) (j : S32x512x1024.Idx) :
    val_main_v1 (F := Ideal) x j = 1 - x j := by
  rw [val_main_v1_apply, val_main_v0_apply, val_main_cst_apply]
  show Ideal.ofBits .f32 0x3F800000#32 - x j = _
  rw [one_eq]

/-- The reference's last stage at (p,b,o): the two products, entry by entry. -/
theorem stage_apply (x : (⟨S32x512x1024, .f32⟩ : BufTy).Contents (Elt Ideal)) (w : (⟨S2x32x1024x1024, .f32⟩ : BufTy).Contents (Elt Ideal))
    (p : Fin 32) (b : Fin 512) (o : Fin 1024) :
    val_main_v8 (F := Ideal) x w (ix3 p b o) = twoProductsAt x w p b o := by
  unfold twoProductsAt
  rw [val_main_v8_apply, val_main_v4_apply, val_main_v7_apply]
  simp only [val_main_v3_apply, val_main_v2_apply, val_main_v6_apply, val_main_v5_apply, compl_apply,
    left0, left1, plane0, plane1, Ideal.addf_def]

/-- The reference's last stage is the two-product form of its arguments. -/
theorem stage_eq (x : (⟨S32x512x1024, .f32⟩ : BufTy).Contents (Elt Ideal)) (w : (⟨S2x32x1024x1024, .f32⟩ : BufTy).Contents (Elt Ideal)) :
    val_main_v8 (F := Ideal) x w = twoProducts x w := by
  funext i
  obtain ⟨p, b, o, rfl⟩ : ∃ (p : Fin 32) (b : Fin 512) (o : Fin 1024), i = ix3 p b o := ⟨i 0, i 1, i 2, eq_ix3 i⟩
  exact stage_apply x w p b o

end Cert.ReferenceIdeal.RefForm

end
-- ==== Proof.Payload.lean ====
/-
  The kernel body's one store, read entry by entry at the exact extended reals.

  The body loads the row block X = x[p] (as [1,512,1024]) and the two weight planes W0 = w[0,p], W1 = w[1,p] (each as
  [1,1,1024,1024]), drops the unit axes, multiplies X by W0 − W1 into a zero accumulator, sums W1 down its rows into a
  [1024] vector, lays that out as a [1,1024] row, repeats it over the 512 rows and adds. The two changes of float format are
  the identity here. So the stored block at (0,b,o) is
      Σₖ X[0,b,k]·(W0[0,0,k,o] − W1[0,0,k,o]) + Σₖ W1[0,0,k,o].
  Each layout step is read at an entry by its row-major position; the matrix product is the sum over the one contracted
  axis; the lane reduction is the sum over the reduced axis' coordinates.
-/
import proofs.«145250_j58780922413282_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

variable {α : Type}

/-! ## The layout steps at an entry -/

/-- A [512,1024] value stored as a [1,512,1024] block: (0,b,o) reads (b,o). -/
theorem addUnit_apply (v : S512x1024.Idx → α) (h : S512x1024.ShapeCasts S1x512x1024) (b : Fin 512) (o : Fin 1024) :
    shapeCast S1x512x1024 v h (ix3 (0 : Fin 1) b o) = v (ix2 b o) :=
  shapeCast_apply v h (ix3 (0 : Fin 1) b o) (ix2 b o) (by
    rewrite [Shape.rowMajor_val_two, Shape.rowMajor_val_three]
    show b.val * 1024 + o.val = (0 * 512 + b.val) * 1024 + o.val
    omega)

/-- A [1,512,1024] block viewed as [512,1024]: (b,k) reads (0,b,k). -/
theorem dropUnit3_apply (v : S1x512x1024.Idx → α) (h : S1x512x1024.ShapeCasts S512x1024) (b : Fin 512) (k : Fin 1024) :
    shapeCast S512x1024 v h (ix2 b k) = v (ix3 (0 : Fin 1) b k) :=
  shapeCast_apply v h (ix2 b k) (ix3 (0 : Fin 1) b k) (by
    rewrite [Shape.rowMajor_val_two, Shape.rowMajor_val_three]
    show (0 * 512 + b.val) * 1024 + k.val = b.val * 1024 + k.val
    omega)

/-- A [1,1,1024,1024] plane viewed as [1024,1024]: (k,o) reads (0,0,k,o). -/
theorem dropUnit4_apply (v : S1x1x1024x1024.Idx → α) (h : S1x1x1024x1024.ShapeCasts S1024x1024) (k o : Fin 1024) :
    shapeCast S1024x1024 v h (ix2 k o) = v (ix4 (0 : Fin 1) (0 : Fin 1) k o) :=
  shapeCast_apply v h (ix2 k o) (ix4 (0 : Fin 1) (0 : Fin 1) k o) (by
    rewrite [Shape.rowMajor_val_two, Shape.rowMajor_val_four]
    show ((0 * 1 + 0) * 1024 + k.val) * 1024 + o.val = k.val * 1024 + o.val
    omega)

/-- A [1024] vector laid out as a [1,1024] row: (0,o) reads o. -/
theorem row_apply (v : S1024.Idx → α) (h : S1024.ShapeCasts S1x1024) (o : Fin 1024) :
    shapeCast S1x1024 v h (ix2 (0 : Fin 1) o) = v (ix1 o) :=
  shapeCast_apply v h (ix2 (0 : Fin 1) o) (ix1 o) (by
    rewrite [Shape.rowMajor_val_one, Shape.rowMajor_val_two]
    show o.val = 0 * 1024 + o.val
    omega)

/-- A [1,1024] row repeated over 512 rows: (b,o) reads (0,o). -/
theorem repeat_apply (v : S1x1024.Idx → α) (h : S1x1024.Broadcasts S512x1024) (b : Fin 512) (o : Fin 1024) :
    broadcastTo S512x1024 v h (ix2 b o) = v (ix2 (0 : Fin 1) o) :=
  broadcastTo_apply v h (ix2 b o) (ix2 (0 : Fin 1) o) (fun a => by
    match a with
    | ⟨0, _⟩ => rfl
    | ⟨1, _⟩ => rfl)

/-! ## The lane reduction and the matrix product at an entry -/

/-- The sum of a [1024,1024] value down its rows, at column o. -/
theorem colsum_apply (v : FVec Ideal S1024x1024 .f32) (h : S1024x1024.Reduces [0] S1024) (hφ : FKind.Formats .f32)
    (hacc : (0x00000000#32 : BitVec 32) = FKind.add.neutral .f32 hφ) (o : Fin 1024) :
    multiReduction (F := Ideal) .add [0] S1024 v 0x00000000#32 h hφ hacc (ix1 o) = ∑ k : Fin 1024, v (ix2 k o) :=
  (Ideal.multiReduction_add_single v 0x00000000#32 h hφ hacc (ix1 o)).trans
    (Finset.sum_congr rfl fun k _ => congrArg v (funext fun a => Fin.ext (by
      match a with
      | ⟨0, _⟩ => rfl
      | ⟨1, _⟩ => rfl)))

theorem lhs_axis0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_axis1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs_axis0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs_axis1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The [512,1024]·[1024,1024] product into the zero accumulator, at (b,o): the sum over the contracted feature k of
    the left operand at (b,k) times the right at (k,o). -/
theorem product_apply (l : FVec Ideal S512x1024 .bf16) (r : FVec Ideal S1024x1024 .bf16) (b : Fin 512) (o : Fin 1024) :
    matmul (F := Ideal) dot_S512x1024_S1024x1024_S512x1024_1_0_0_1_n_n none l r (constant S512x1024 .f32 0x00000000#32) (ix2 b o)
      = ∑ k : Fin 1024, l (ix2 b k) * r (ix2 k o) := by
  simp only [matmul]
  rw [Ideal.matmul_constant_zero_apply,
    ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 b o)
      ((ValueIdx.contrEquiv1 dot_S512x1024_S1024x1024_S512x1024_1_0_0_1_n_n 1024 rfl rfl).symm k) = ix2 b k :=
    funext fun a => Fin.ext (by
      match a with
      | ⟨0, _⟩ => exact lhs_axis0 _ _
      | ⟨1, _⟩ => exact (lhs_axis1 _ _).trans hk)
  have er : dot_S512x1024_S1024x1024_S512x1024_1_0_0_1_n_n.rhsIdx (ix2 b o)
      ((ValueIdx.contrEquiv1 dot_S512x1024_S1024x1024_S512x1024_1_0_0_1_n_n 1024 rfl rfl).symm k) = ix2 k o :=
    funext fun a => Fin.ext (by
      match a with
      | ⟨0, _⟩ => exact (rhs_axis0 _ _).trans hk
      | ⟨1, _⟩ => exact rhs_axis1 _ _)
  rw [el, er]

/-! ## The stored block at an entry -/

/-- What the body stores, at (0,b,o), from its three loads. -/
theorem stored_apply (X : Vec Ideal S1x512x1024 .f32) (W0 W1 : Vec Ideal S1x1x1024x1024 .f32) (b : Fin 512) (o : Fin 1024) :
    k0_pay1 (F := Ideal) X W0 W1 (ix3 (0 : Fin 1) b o)
      = (∑ k : Fin 1024, X (ix3 (0 : Fin 1) b k) * (W0 (ix4 (0 : Fin 1) (0 : Fin 1) k o) - W1 (ix4 (0 : Fin 1) (0 : Fin 1) k o)))
        + ∑ k : Fin 1024, W1 (ix4 (0 : Fin 1) (0 : Fin 1) k o) := by
  unfold k0_pay1
  refine (addUnit_apply _ _ b o).trans ?_
  refine congrArg₂ (fun u v : EReal => u + v) ?_ ?_
  · refine (product_apply _ _ b o).trans ?_
    refine Finset.sum_congr rfl fun k _ => ?_
    refine congrArg₂ (fun u v : EReal => u * v) ?_ ?_
    · exact dropUnit3_apply _ _ b k
    · exact congrArg₂ (fun u v : EReal => u - v) (dropUnit4_apply _ _ k o) (dropUnit4_apply _ _ k o)
  · refine (repeat_apply _ _ b o).trans ?_
    refine (row_apply _ _ o).trans ?_
    refine (colsum_apply _ _ _ _ o).trans ?_
    exact Finset.sum_congr rfl fun k _ => dropUnit4_apply _ _ k o

end Cert.KernelIdeal.Payload

end
-- ==== Proof.KernelValue.lean ====
/-
  The kernel's output array after the run, as one function of its two argument arrays.

  The grid has 32 points; at point t the pipeline stages the row block x[t] (block index (t,0,0) of blocks [1,512,1024]), the
  pair of weight planes w[·,t] (block index (0,t,0,0) of blocks [2,1,1024,1024]) and writes back block (t,0,0) of the output.
  So an entry (0,b,k) of the staged x block is x[t,b,k], an entry (z,0,k,o) of the staged weight block is w[z,t,k,o], and entry
  (0,b,o) of what point t writes back lands at (t,b,o). With the stored block read entry by entry, point t writes block t of
  `fused x w`; the 32 blocks tile the output (row p of the array is covered by point p), hence the array ends at `fused x w`.
-/
import proofs.«145250_j58780922413282_1_alg».proof.Proof.Gen.KernelIdeal.Value
import proofs.«145250_j58780922413282_1_alg».proof.Proof.Payload
import proofs.«145250_j58780922413282_1_alg».proof.Proof.FusedLaw

noncomputable section

namespace Cert.KernelIdeal.Whole

open Cert.KernelIdeal Cert.KernelIdeal.Gen Idealize.ShloMosaic Idealize.ShloMosaic.TcCoe Idealize.SL.Sem
open Idealize.ShloMosaic.ValueIdx Cert.EvoLayer
open Idealize.ShloMosaic.Pipeline (Dat)

theorem zeros3 : (![0, 0, 0] : Fin 3 → Nat) = fun _ => 0 := funext fun a => by fin_cases a <;> rfl

/-! ## The body's result from its two staged blocks, at an entry -/

/-- What the body leaves in the output's staging buffer, at (0,b,o), from the staged x block `x0` and the staged pair of
    weight planes `x1`: the whole-buffer load of x0 reads x0; the two loads of x1 read its plane 0 and its plane 1. -/
theorem block_apply (x0 : Vec Ideal S1x512x1024 .f32) (x1 : Vec Ideal S2x1x1024x1024 .f32) (b : Fin 512) (o : Fin 1024) :
    out0_2 (F := Ideal) x0 x1 (ix3 (0 : Fin 1) b o)
      = (∑ k : Fin 1024, x0 (ix3 (0 : Fin 1) b k) * (x1 (ix4 (0 : Fin 2) (0 : Fin 1) k o) - x1 (ix4 (1 : Fin 2) (0 : Fin 1) k o)))
        + ∑ k : Fin 1024, x1 (ix4 (1 : Fin 2) (0 : Fin 1) k o) := by
  unfold out0_2
  rw [View.canon_unit_zero zeros3]
  refine (Payload.stored_apply _ _ _ b o).trans ?_
  have e0 : ∀ k : Fin 1024, View.ld x0 r0_0 (ix3 (0 : Fin 1) b k) = x0 (ix3 (0 : Fin 1) b k) := fun k =>
    congrFun (View.ld_unit_zero zeros3 _ x0) _
  have e1 : ∀ k : Fin 1024, View.ld x1 r0_1 (ix4 (0 : Fin 1) (0 : Fin 1) k o) = x1 (ix4 (0 : Fin 2) (0 : Fin 1) k o) := fun k =>
    congrArg x1 (funext fun a => Fin.ext (by
      match a with
      | ⟨0, _⟩ => rfl
      | ⟨1, _⟩ => rfl
      | ⟨2, _⟩ => show 0 + 1 * k.val = k.val; omega
      | ⟨3, _⟩ => show 0 + 1 * o.val = o.val; omega))
  have e2 : ∀ k : Fin 1024, View.ld x1 r0_2 (ix4 (0 : Fin 1) (0 : Fin 1) k o) = x1 (ix4 (1 : Fin 2) (0 : Fin 1) k o) := fun k =>
    congrArg x1 (funext fun a => Fin.ext (by
      match a with
      | ⟨0, _⟩ => rfl
      | ⟨1, _⟩ => rfl
      | ⟨2, _⟩ => show 0 + 1 * k.val = k.val; omega
      | ⟨3, _⟩ => show 0 + 1 * o.val = o.val; omega))
  simp only [e0, e1, e2]

/-! ## The index maps over the grid -/

/-- The printed index maps, decided over the 32 points: x and the output move along axis 0 with the point, the weights
    along axis 1; every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = 0 ∧ win0_1.index t (1 : Fin 4) = t.val ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

variable (m : (ℓ : Loc nD τ sig) → Buf (Elt Ideal) ℓ) (ρ : Dev nD → PrngReg)

/-! ## The staged blocks are the arrays' rows -/

/-- Entry (0,b,k) of the x block staged at point t is x[t,b,k]. -/
theorem xblock_apply (c : Dev nD) (t : Fin cfg0.N) (ht : t.val < 32) (b : Fin 512) (k : Fin 1024) :
    iblk m c 0 t (ix3 (0 : Fin 1) b k) = V m c main_arg0 (ix3 (⟨t.val, ht⟩ : Fin 32) b k) := by
  obtain ⟨a0, a1, a2, -⟩ := idx_facts t
  show V m c main_arg0 (((cfg0.win 0).blk t).view.emb (ix3 (0 : Fin 1) b k)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * b.val = b.val; omega
  | ⟨2, _⟩ => show win0_0.index t (2 : Fin 3) * 1024 + 1 * k.val = k.val; omega

/-- Entry (z,0,k,o) of the weight block staged at point t is w[z,t,k,o]. -/
theorem wblock_apply (c : Dev nD) (t : Fin cfg0.N) (ht : t.val < 32) (z : Fin 2) (k o : Fin 1024) :
    iblk m c 1 t (ix4 z (0 : Fin 1) k o) = V m c main_arg1 (ix4 z (⟨t.val, ht⟩ : Fin 32) k o) := by
  obtain ⟨-, -, -, b0, b1, b2, b3, -⟩ := idx_facts t
  show V m c main_arg1 (((cfg0.win 1).blk t).view.emb (ix4 z (0 : Fin 1) k o)) = _
  refine congrArg (V m c main_arg1) (funext fun a => Fin.ext ?_)
  match a with
  | ⟨0, _⟩ => show win0_1.index t (0 : Fin 4) * 2 + 1 * z.val = z.val; omega
  | ⟨1, _⟩ => show win0_1.index t (1 : Fin 4) * 1 + 1 * 0 = t.val; omega
  | ⟨2, _⟩ => show win0_1.index t (2 : Fin 4) * 1024 + 1 * k.val = k.val; omega
  | ⟨3, _⟩ => show win0_1.index t (3 : Fin 4) * 1024 + 1 * o.val = o.val; omega

/-! ## What a point writes back -/

/-- Point t writes back block t of `fused` of the argument arrays. -/
theorem flushed_eq (c : Dev nD) (t : Fin cfg0.N) :
    (dats m 0 c).flushed 2 t = ((cfg0.win 2).blk t).view.read (Elt Ideal) (fused (V m c main_arg0) (V m c main_arg1)) := by
  rw [Value.flushed2]
  obtain ⟨-, -, -, -, -, -, -, c0, c1, c2⟩ := idx_facts t
  have ht : t.val < 32 := lt_of_lt_of_eq t.isLt N_0
  funext j
  have hj0 : (j 0).val < 1 := (j 0).isLt
  have hj1 : (j 1).val < 512 := (j 1).isLt
  have hj2 : (j 2).val < 1024 := (j 2).isLt
  have hsrc : (cfg0.win 2).cut (grid0.coords t) (out0_2 (iblk m c 0 t) (iblk m c 1 t)) j
      = out0_2 (F := Ideal) (iblk m c 0 t) (iblk m c 1 t) (ix3 (0 : Fin 1) (⟨(j 1).val, hj1⟩ : Fin 512) (⟨(j 2).val, hj2⟩ : Fin 1024)) :=
    congrArg (out0_2 (F := Ideal) (iblk m c 0 t) (iblk m c 1 t)) (funext fun a => Fin.ext (by
      match a with
      | ⟨0, _⟩ => show (j 0).val = 0; omega
      | ⟨1, _⟩ => rfl
      | ⟨2, _⟩ => rfl))
  have hdst : ((cfg0.win 2).blk t).view.emb j = ix3 (⟨t.val, ht⟩ : Fin 32) (⟨(j 1).val, hj1⟩ : Fin 512) (⟨(j 2).val, hj2⟩ : Fin 1024) :=
    funext fun a => Fin.ext (by
      match a with
      | ⟨0, _⟩ => show win0_2.index t (0 : Fin 3) * 1 + 1 * (j 0).val = t.val; omega
      | ⟨1, _⟩ => show win0_2.index t (1 : Fin 3) * 512 + 1 * (j 1).val = (j 1).val; omega
      | ⟨2, _⟩ => show win0_2.index t (2 : Fin 3) * 1024 + 1 * (j 2).val = (j 2).val; omega)
  refine hsrc.trans ?_
  show _ = fused (V m c main_arg0) (V m c main_arg1) (((cfg0.win 2).blk t).view.emb j)
  rw [hdst]
  refine (block_apply (iblk m c 0 t) (iblk m c 1 t) _ _).trans ?_
  show _ = fusedAt (V m c main_arg0) (V m c main_arg1) (⟨t.val, ht⟩ : Fin 32) (⟨(j 1).val, hj1⟩ : Fin 512) (⟨(j 2).val, hj2⟩ : Fin 1024)
  unfold fusedAt
  simp only [xblock_apply m c t ht, wblock_apply m c t ht]

/-! ## The blocks tile the output -/

/-- An index of the output is in point t's block iff each coordinate is in the block's range on its axis. -/
theorem mem_blk (t : Fin cfg0.N) (i : S32x512x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v0).slice (win0_2.rect t)).set ↔ _
  rw [View.set_slice_whole, Rect.mem_set_unit]
  exact Iff.rfl

/-- Every output index (p,b,o) lies in the block of point p. -/
theorem cover (i : S32x512x1024.Idx) : ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 1024 := (i 2).isLt
  obtain ⟨t, ht⟩ : ∃ t : Fin cfg0.N, t.val = (i 0).val := ⟨⟨(i 0).val, lt_of_lt_of_eq hi0 N_0.symm⟩, rfl⟩
  obtain ⟨-, -, -, -, -, -, -, c0, c1, c2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-! ## The array after the run, and the run -/

/-- The output array ends at `fused` of the argument arrays as launched. -/
theorem final (c : Dev nD) :
    (dats m 0 c).arrAt 2 cfg0.N = fused (m ((c : Thread nD τ).loc main_arg0)) (m ((c : Thread nD τ).loc main_arg1)) :=
  (dats m 0 c).arrAt_eq_of_cover 2 (fused (V m c main_arg0) (V m c main_arg1)) (fun t _ => flushed_eq m c t) cover

/-- Every weakly fair execution of the idealized kernel ends with the output at `fused x w` and the arguments unchanged. -/
theorem run : θ_run defs (onTc (τ := τ) (main (F := Ideal))) ⟨m, fun _ => 0, ρ⟩ fun r => ∀ c : Dev nD,
      r.2.mem ((c : Thread nD τ).loc main_v0) = fused (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Finite.lean ====
/-
  The precondition read back: if `finite_inputs` holds of two arrays, every entry of each is a real number.

  The predicate is the conjunction of two `all`s; each is a reduction by `and`, from 1, of the entrywise test |a| < +∞
  (|a| is max a (−a) on the extended reals, and 0x7F800000 is +∞). A reduction by `and` that came out 1 met only 1s, so the
  test holds at every entry; and |a| < +∞ fails at both infinities (|±∞| = +∞), so a is real.
-/
import proofs.«145250_j58780922413282_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic Idealize.ShloMosaic.ValueIdx

/-- The rank-0 shape has one index. -/
instance : Subsingleton S_.Idx := ⟨fun a b => funext fun d => d.elim0⟩

/-- The pattern the test compares against is +∞. -/
theorem inf_eq : Ideal.ofBits .f32 0x7F800000#32 = (⊤ : EReal) := by simp [Ideal.ofBits, Ideal.ieee]

/-- An extended real whose absolute value is below +∞ is a real number. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- Under the precondition every entry of both arrays is real. -/
theorem entries_real (x : FVec Ideal S32x512x1024 .f32) (w : FVec Ideal S2x32x1024x1024 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨hx, hw⟩ := IntOp.andi_eq_one.1 h0
  refine ⟨fun i => ?_, fun i => ?_⟩
  · have e := Host.reduce_andi_all _ _ _ _ ix0 hx i
    refine real_of_abs_lt_top (x i) ?_
    rw [← inf_eq]
    exact e
  · have e := Host.reduce_andi_all _ _ _ _ ix0 hw i
    refine real_of_abs_lt_top (w i) ?_
    rw [← inf_eq]
    exact e

end Cert.Pre_finite_inputs.Finite

end
-- ==== Proof.lean ====
/-
  The certificate of the binarized two-plane layer: out[p] = x[p]·w[0,p] + (1 − x[p])·w[1,p] over 32 problems.

  The reference computes the two batched products and adds them. The kernel, one grid point per problem p, forms the
  difference w[0,p] − w[1,p], multiplies x[p] by it once, and adds the column sums of w[1,p] as a bias:
      Σₖ x·(w0 − w1) + Σₖ w1   against   Σₖ x·w0 + Σₖ (1 − x)·w1.
  At the exact extended reals the changes of float format are the identity, the kernel's matrix product into a zero
  accumulator and the reference's contraction are the same sum over the feature axis, and the lane reduction is the sum down
  the rows. The two forms agree by distributivity, term by term; distributivity fails at ±∞, so the proof uses the
  precondition: every entry of x and w is a real number (Proof/Finite.lean), where the law is a ring identity
  (Proof/FusedLaw.lean).
  The three frames are the generated ones (the reference's is its run with the result dropped). The idealization rewrote
  nothing, so `preserves` is trivial. For `algebraic`: the kernel's output array is `fused x w` (Proof/Payload.lean for the
  stored block entry by entry, Proof/KernelValue.lean for the 32 blocks tiling the array), the reference's result is
  `twoProducts x w` (Proof/RefForm.lean), and on real inputs these are one function.
-/
import proofs.«145250_j58780922413282_1_alg».proof.Defs
import proofs.«145250_j58780922413282_1_alg».proof.Proof.Gen.Kernel
import proofs.«145250_j58780922413282_1_alg».proof.Proof.Gen.Kernel.Skeleton
import proofs.«145250_j58780922413282_1_alg».proof.Proof.Gen.Kernel.Launch
import proofs.«145250_j58780922413282_1_alg».proof.Proof.Gen.Kernel.Points
import proofs.«145250_j58780922413282_1_alg».proof.Proof.Gen.Kernel.Frame
import proofs.«145250_j58780922413282_1_alg».proof.Proof.Gen.KernelIdeal
import proofs.«145250_j58780922413282_1_alg».proof.Proof.Gen.KernelIdeal.Skeleton
import proofs.«145250_j58780922413282_1_alg».proof.Proof.Gen.KernelIdeal.Launch
import proofs.«145250_j58780922413282_1_alg».proof.Proof.Gen.KernelIdeal.Points
import proofs.«145250_j58780922413282_1_alg».proof.Proof.Gen.KernelIdeal.Frame
import proofs.«145250_j58780922413282_1_alg».proof.Proof.Gen.ReferenceIdeal
import proofs.«145250_j58780922413282_1_alg».proof.Proof.Gen.Pre_finite_inputs
import proofs.«145250_j58780922413282_1_alg».proof.Proof.Gen.KernelIdeal.Value
import proofs.«145250_j58780922413282_1_alg».proof.Proof.Gen.ReferenceIdeal.Run
import proofs.«145250_j58780922413282_1_alg».proof.Proof.Gen.ReferenceIdeal.Read
import proofs.«145250_j58780922413282_1_alg».proof.Proof.FusedLaw
import proofs.«145250_j58780922413282_1_alg».proof.Proof.RefForm
import proofs.«145250_j58780922413282_1_alg».proof.Proof.KernelValue
import proofs.«145250_j58780922413282_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the output at `fused x w`: the kernel by its value leg, the reference because its
    result `twoProducts x w` is that function on the real inputs the precondition admits. -/
theorem algebraic : Cert.algebraic_KernelIdeal_ReferenceIdeal := by
  intro m ρ m' ρ' hpre hagree
  refine ⟨fun c => Cert.EvoLayer.fused (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefForm.stage_eq, (hagree c).1, (hagree c).2]
  obtain ⟨hx, hw⟩ := Cert.Pre_finite_inputs.Finite.entries_real _ _ (hpre c)
  exact (Cert.EvoLayer.fused_eq_twoProducts _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
